-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S10x256 : S_.BroadcastsInDim S10x256 (![] : Fin 0 → Fin S10x256.rank)
  reducesTo_S10x256_S_d0_1 : S10x256.ReducesTo [0, 1] S_

variable [Facts]

def fn_part1 {F : FTy → Type} [FloatOps F] (main_v13 : IVec S_ 1) (main_v16 : IVec S10x256 1) : IVec S_ 1 :=
  let main_c_5 : IVec S_ 1 := constantI S_ 1 1#1
  let main_v17 : IVec S_ 1 := (fun x v => Host.reduce IntOp.andi x v reducesTo_S10x256_S_d0_1 h_S_) main_v16 main_c_5
  let main_v18 : IVec S_ 1 := andi main_v13 main_v17
  main_v18

def fn {F : FTy → Type} [FloatOps F] (main_arg0 : FVec F S100000x256 .f32) (main_arg1 : IVec S2x3200000 32) (main_arg2 : IVec S100000 32) (main_arg3 : FVec F S256x10 .f32) (main_arg4 : FVec F S10 .f32) (main_arg5 : FVec F S10x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x10 .f32 := Host.absf main_arg3
  let main_cst_0 : FVec F S_ .f32 := constant S_ .f32 0x7F800000#32
  let main_v5 : FVec F S256x10 .f32 := broadcastInDim S256x10 ![] bcast_S_S256x10 main_cst_0
  let main_v6 : IVec S256x10 1 := cmpf .olt main_v4 main_v5
  let main_c_1 : IVec S_ 1 := constantI S_ 1 1#1
  let main_v7 : IVec S_ 1 := (fun x v => Host.reduce IntOp.andi x v reducesTo_S256x10_S_d0_1 h_S_) main_v6 main_c_1
  let main_v8 : IVec S_ 1 := andi main_v3 main_v7
  let main_v9 : FVec F S10 .f32 := Host.absf main_arg4
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x256 .f32 := Host.absf main_arg5
  let main_cst_4 : FVec F S_ .f32 := constant S_ .f32 0x7F800000#32
  let main_v15 : FVec F S10x256 .f32 := broadcastInDim S10x256 ![] bcast_S_S10x256 main_cst_4
  let main_v16 : IVec S10x256 1 := cmpf .olt main_v14 main_v15
  fn_part1 (F := F) main_v13 main_v16
-- ==== Kernel.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩
abbrev S256 : Shape := ⟨1, ![256]⟩
abbrev S1x256 : Shape := ⟨2, ![1, 256]⟩
abbrev S100000x10 : Shape := ⟨2, ![100000, 10]⟩
abbrev S5000x256 : Shape := ⟨2, ![5000, 256]⟩
abbrev S5000x10 : Shape := ⟨2, ![5000, 10]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x10 : Shape := ⟨2, ![3300000, 10]⟩
abbrev S1x10 : Shape := ⟨2, ![1, 10]⟩
abbrev S5000 : Shape := ⟨1, ![5000]⟩
abbrev S5000x1 : Shape := ⟨2, ![5000, 1]⟩

abbrev nBuf : Space → Nat
  | .hbm => 70
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x10, .f32⟩
  | .hbm, ⟨4, _⟩ => ⟨S10, .f32⟩
  | .hbm, ⟨5, _⟩ => ⟨S10x256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S100000x10, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x10, .f32⟩
  | .hbm, ⟨59, _⟩ => ⟨S3300000x1, .f32⟩
  | .hbm, ⟨60, _⟩ => ⟨S3300000x10, .f32⟩
  | .hbm, ⟨61, _⟩ => ⟨S3300000x10, .f32⟩
  | .hbm, ⟨62, _⟩ => ⟨S_, .f32⟩
  | .hbm, ⟨63, _⟩ => ⟨S100000x10, .f32⟩
  | .hbm, ⟨64, _⟩ => ⟨S3300000x1, .i32⟩
  | .hbm, ⟨65, _⟩ => ⟨S100000x10, .f32⟩
  | .hbm, ⟨66, _⟩ => ⟨S1x10, .f32⟩
  | .hbm, ⟨67, _⟩ => ⟨S100000x10, .f32⟩
  | .hbm, ⟨68, _⟩ => ⟨S100000x10, .f32⟩
  | .hbm, ⟨69, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S1x256, .f32⟩
  | .local _ .vmem, ⟨3, _⟩ => ⟨S256x10, .f32⟩
  | .local _ .vmem, ⟨4, _⟩ => ⟨S5000x10, .f32⟩
  | .local _ .vmem, ⟨5, _⟩ => ⟨S5000x10, .f32⟩
  | .local _ .vmem, ⟨6, _⟩ => ⟨S5000x10, .f32⟩
  | .local _ .vmem, ⟨7, _⟩ => ⟨S5000x10, .f32⟩
  | .local _ .vmem, ⟨8, _⟩ => ⟨S10x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  inb_S5000x256_S5000x256_0_0 : ∀ a, (![0, 0] : Fin 2 → Nat) a + S5000x256.size a ≤ S5000x256.size a
  h_S5000x256 : 0 < S5000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bitsLt_bf16_f32 : FTy.bits .bf16 < FTy.bits .f32
  inb_S256x10_S256x10_0_0 : ∀ a, (![0, 0] : Fin 2 → Nat) a + S256x10.size a ≤ S256x10.size a
  h_S256x10 : 0 < S256x10.numel
  inb_S5000x10_S5000x10_0_0 : ∀ a, (![0, 0] : Fin 2 → Nat) a + S5000x10.size a ≤ S5000x10.size a
  h_S5000x10 : 0 < S5000x10.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  shapeCasts_S5000x10_S5000x10 : S5000x10.ShapeCasts S5000x10
  reduces_S5000x10_S5000 : S5000x10.Reduces [1] S5000
  shapeCasts_S5000_S5000x1 : S5000.ShapeCasts S5000x1
  broadcasts_S5000x1_S5000x10 : S5000x1.Broadcasts S5000x10
  inb_S10x256_S10x256_0_0 : ∀ a, (![0, 0] : Fin 2 → Nat) a + S10x256.size a ≤ S10x256.size a
  h_S10x256 : 0 < S10x256.numel
  dot_S5000x256_S256x10_S5000x10_1_0_0_1_n_n_wf : DotDims.WF S5000x256 S256x10 S5000x10 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S5000x10_S10x256_S5000x256_1_0_0_1_n_n_wf : DotDims.WF S5000x10 S10x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S256x10.size a
  hwx0_2 : ∀ i : grid0.Coords, EltTy.bits .f32 = 32 ∨ (Rect.block (s := S256x10) S256x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S100000x10.size a
  hwx0_3 : ∀ i : grid0.Coords, EltTy.bits .f32 = 32 ∨ (Rect.block (s := S100000x10) S5000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S100000x10.size a
  hwx1_0 : ∀ i : grid1.Coords, EltTy.bits .f32 = 32 ∨ (Rect.block (s := S100000x10) S5000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x256.size a ≤ S10x256.size a
  hwx1_1 : ∀ i : grid1.Coords, EltTy.bits .f32 = 32 ∨ (Rect.block (s := S10x256) S10x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)

variable [Facts₀]

def dot_S5000x256_S256x10_S5000x10_1_0_0_1_n_n : DotDims S5000x256 S256x10 S5000x10 where
  lhsContracting := [1]
  rhsContracting := [0]
  lhsNonContracting := [0]
  rhsNonContracting := [1]
  lhsBatch := []
  rhsBatch := []
  wf := dot_S5000x256_S256x10_S5000x10_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S5000x10_S10x256_S5000x256_1_0_0_1_n_n : DotDims S5000x10 S10x256 S5000x256 where
  lhsContracting := [1]
  rhsContracting := [0]
  lhsNonContracting := [0]
  rhsNonContracting := [1]
  lhsBatch := []
  rhsBatch := []
  wf := dot_S5000x10_S10x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S10x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S100000 : Shape := ⟨1, ![100000]⟩
abbrev S256x10 : Shape := ⟨2, ![256, 10]⟩
abbrev S10 : Shape := ⟨1, ![10]⟩
abbrev S10x256 : Shape := ⟨2, ![10, 256]⟩
abbrev S_ : Shape := ⟨0, ![]⟩
abbrev S256 : Shape := ⟨1, ![256]⟩
abbrev S1x256 : Shape := ⟨2, ![1, 256]⟩
abbrev S100000x10 : Shape := ⟨2, ![100000, 10]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S256x10, .f32⟩
  | .hbm, ⟨4, _⟩ => ⟨S10, .f32⟩
  | .hbm, ⟨5, _⟩ => ⟨S10x256, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S100000x256, .f32⟩
  | .hbm, ⟨10, _⟩ => ⟨S100000x256, .f32⟩
  | .hbm, ⟨11, _⟩ => ⟨S100000x10, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x10, .f32⟩
  | .hbm, ⟨61, _⟩ => ⟨S3300000x1, .f32⟩
  | .hbm, ⟨62, _⟩ => ⟨S3300000x10, .f32⟩
  | .hbm, ⟨63, _⟩ => ⟨S3300000x10, .f32⟩
  | .hbm, ⟨64, _⟩ => ⟨S_, .f32⟩
  | .hbm, ⟨65, _⟩ => ⟨S100000x10, .f32⟩
  | .hbm, ⟨66, _⟩ => ⟨S3300000x1, .i32⟩
  | .hbm, ⟨67, _⟩ => ⟨S100000x10, .f32⟩
  | .hbm, ⟨68, _⟩ => ⟨S1x10, .f32⟩
  | .hbm, ⟨69, _⟩ => ⟨S100000x10, .f32⟩
  | .hbm, ⟨70, _⟩ => ⟨S100000x10, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x10, .f32⟩
  | .hbm, ⟨78, _⟩ => ⟨S100000x10, .f32⟩
  | .hbm, ⟨79, _⟩ => ⟨S100000x10, .f32⟩
  | .hbm, ⟨80, _⟩ => ⟨S_, .f32⟩
  | .hbm, ⟨81, _⟩ => ⟨S100000, .f32⟩
  | .hbm, ⟨82, _⟩ => ⟨S100000x1, .f32⟩
  | .hbm, ⟨83, _⟩ => ⟨S100000x10, .f32⟩
  | .hbm, ⟨84, _⟩ => ⟨S100000x10, .f32⟩
  | .hbm, ⟨85, _⟩ => ⟨S100000x256, .f32⟩
  | .hbm, ⟨86, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  reducesTo_S10x256_S256_d0 : S10x256.ReducesTo [0] S256
  h_S_ : 0 < S_.numel
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x256_S256x10_S100000x10_1_0_0_1_n_n_wf : DotDims.WF S100000x256 S256x10 S100000x10 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S100000x10_S10x256_S100000x256_1_0_0_1_n_n_wf : DotDims.WF S100000x10 S10x256 S100000x256 [1] [0] [0] [1] [] []

variable [Facts₀]

def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S100000x10_S10x256_S100000x256_1_0_0_1_n_n : DotDims S100000x10 S10x256 S100000x256 where
  lhsContracting := [1]
  rhsContracting := [0]
  lhsNonContracting := [0]
  rhsNonContracting := [1]
  lhsBatch := []
  rhsBatch := []
  wf := dot_S100000x10_S10x256_S100000x256_1_0_0_1_n_n_wf

class Facts : Prop extends Facts₀ where

variable [Facts]
-- ==== Proof.Spec.lean ====
/-
  The mathematics of the two dense stages, stated once over plain index functions on the extended reals, with
  every index given by its coordinates.

  A node feature matrix `x` (rows = nodes, 256 features), a 1 × 256 row `cs` (the column sums of the cluster
  embeddings), a 256 × 10 weight `w`: the projected features are `(x + cs) · w`, row by row.
  A 10-wide row of logits is turned into soft cluster weights by the usual shifted softmax: subtract the row's
  maximum (taken from −∞), exponentiate, divide by the row's sum. The pooled result adds to each node's features the
  soft-weighted combination of the 10 cluster embeddings.

  The softmax pieces are generic in the number of rows, so that the same definitions read a 5000-row block and the
  whole 100000-row array; `soft_congr` says that they depend only on the row's ten entries.
-/
import Idealize.ShloMosaic.PureOps.Ideal
import Idealize.ShloMosaic.Lib.ValueIdx

noncomputable section

namespace Cert.Spec

open Idealize.ShloMosaic Idealize.ShloMosaic.ValueIdx

/-- −∞ as the f32 word both programs spell it with. -/
abbrev negInf : EReal := Ideal.ofBits .f32 0xFF800000#32

/-- Entry `(r, q)` of `(x + cs) · w`: the sum over the 256 features of `(x[r,k] + cs[0,k]) · w[k,q]`. -/
def proj {n : ℕ} (x : (⟨2, ![n, 256]⟩ : Shape).Idx → EReal) (cs : (⟨2, ![1, 256]⟩ : Shape).Idx → EReal)
    (w : (⟨2, ![256, 10]⟩ : Shape).Idx → EReal) (r : Fin n) (q : Fin 10) : EReal :=
  ∑ k : Fin 256, (x (ix2 r k) + cs (ix2 (0 : Fin 1) k)) * w (ix2 k q)

/-- The maximum of row `r`'s ten logits, folded from −∞ (and once more against −∞, as both programs do). -/
def rowMax {n : ℕ} (lg : (⟨2, ![n, 10]⟩ : Shape).Idx → EReal) (r : Fin n) : EReal :=
  max negInf ((Finset.univ : Finset (Fin 10)).fold max negInf (fun k => lg (ix2 r k)))

/-- `exp (logit − row maximum)`. -/
def expShift {n : ℕ} (lg : (⟨2, ![n, 10]⟩ : Shape).Idx → EReal) (r : Fin n) (k : Fin 10) : EReal :=
  Ideal.exp (lg (ix2 r k) - rowMax lg r)

/-- The soft weight of cluster `k` in row `r`: the shifted exponential over the row's sum of them. -/
def soft {n : ℕ} (lg : (⟨2, ![n, 10]⟩ : Shape).Idx → EReal) (r : Fin n) (k : Fin 10) : EReal :=
  Ideal.div (expShift lg r k) (∑ k' : Fin 10, expShift lg r k')

/-- The soft weights of a row depend only on the row's ten logits. -/
theorem soft_congr {n n' : ℕ} (lg : (⟨2, ![n, 10]⟩ : Shape).Idx → EReal) (lg' : (⟨2, ![n', 10]⟩ : Shape).Idx → EReal)
    (r : Fin n) (r' : Fin n') (h : ∀ k : Fin 10, lg (ix2 r k) = lg' (ix2 r' k)) (k : Fin 10) :
    soft lg r k = soft lg' r' k := by
  have hm : rowMax lg r = rowMax lg' r' := by
    unfold rowMax; rw [show (fun k => lg (ix2 r k)) = fun k => lg' (ix2 r' k) from funext h]
  have he : ∀ k, expShift lg r k = expShift lg' r' k := fun k => by unfold expShift; rw [h k, hm]
  unfold soft; rw [he k, Finset.sum_congr rfl fun k' _ => he k']

/-- Entry `(r, d)` of the pooled output: `x[r,d] + Σ_k soft(r,k) · ce[k,d]`, the soft weights taken from the row
    `r'` of the logits that belongs to node `r`. -/
def pool {n n' : ℕ} (lg : (⟨2, ![n', 10]⟩ : Shape).Idx → EReal) (ce : (⟨2, ![10, 256]⟩ : Shape).Idx → EReal)
    (x : (⟨2, ![n, 256]⟩ : Shape).Idx → EReal) (r' : Fin n') (r : Fin n) (d : Fin 256) : EReal :=
  x (ix2 r d) + ∑ k : Fin 10, soft lg r' k * ce (ix2 k d)

end Cert.Spec

end
-- ==== Proof.LinearPay.lean ====
/-
  The first stage's block, read entry by entry on the extended reals.

  A grid point of the first kernel loads a 5000 × 256 block of node features, the 1 × 256 row of column sums and the
  256 × 10 weight, adds the row to every feature row, and multiplies by the weight into a zero accumulator. Narrowing
  to bf16 is the identity on extended reals, so entry `(p, q)` of what it stores is the plain sum over the 256
  features of `(x[p,k] + cs[0,k]) · w[k,q]`: `Spec.proj` of the three loaded blocks.
-/
import proofs.«176740_j74852690035344_1_alg».proof.Proof.Gen.KernelIdeal.Skeleton
import proofs.«176740_j74852690035344_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinearPay

open Cert.KernelIdeal Cert.KernelIdeal.Gen Idealize.ShloMosaic Idealize.ShloMosaic.ValueIdx

/-! The operand indices of the block's matrix product at output index `i` and contraction index `q`: the left
    operand is read at (row of `i`, `q`), the right at (`q`, column of `i`). -/

theorem lhs_row (i : S5000x10.Idx) (q : dot_S5000x256_S256x10_S5000x10_1_0_0_1_n_n.contr.Idx) :
    (dot_S5000x256_S256x10_S5000x10_1_0_0_1_n_n.lhsIdx i q 0).val = (i 0).val := by
  unfold DotDims.lhsIdx
  rw [dif_neg (show ¬(0 : Fin S5000x256.rank) ∈ dot_S5000x256_S256x10_S5000x10_1_0_0_1_n_n.lhsBatch by decide), dif_pos (show (0 : Fin S5000x256.rank) ∈ dot_S5000x256_S256x10_S5000x10_1_0_0_1_n_n.lhsNonContracting by decide)]
  rfl
theorem lhs_col (i : S5000x10.Idx) (q : dot_S5000x256_S256x10_S5000x10_1_0_0_1_n_n.contr.Idx) :
    (dot_S5000x256_S256x10_S5000x10_1_0_0_1_n_n.lhsIdx i q 1).val = (q ⟨0, by decide⟩).val :=
  dot_S5000x256_S256x10_S5000x10_1_0_0_1_n_n.lhsIdx_val_of_single rfl i q
theorem rhs_row (i : S5000x10.Idx) (q : dot_S5000x256_S256x10_S5000x10_1_0_0_1_n_n.contr.Idx) :
    (dot_S5000x256_S256x10_S5000x10_1_0_0_1_n_n.rhsIdx i q 0).val = (q ⟨0, by decide⟩).val :=
  dot_S5000x256_S256x10_S5000x10_1_0_0_1_n_n.rhsIdx_val_of_single rfl i q
theorem rhs_col (i : S5000x10.Idx) (q : dot_S5000x256_S256x10_S5000x10_1_0_0_1_n_n.contr.Idx) :
    (dot_S5000x256_S256x10_S5000x10_1_0_0_1_n_n.rhsIdx i q 1).val = (i 1).val := by
  unfold DotDims.rhsIdx
  rw [dif_neg (show ¬(1 : Fin S256x10.rank) ∈ dot_S5000x256_S256x10_S5000x10_1_0_0_1_n_n.rhsBatch by decide), dif_pos (show (1 : Fin S256x10.rank) ∈ dot_S5000x256_S256x10_S5000x10_1_0_0_1_n_n.rhsNonContracting by decide)]
  rfl

/-- Entry `(p, q)` of the stored block is `Σ_k (x[p,k] + cs[0,k]) · w[k,q]`. -/
theorem payload_apply (x : Vec Ideal S5000x256 .f32) (cs : Vec Ideal S1x256 .f32) (w : Vec Ideal S256x10 .f32)
    (p : Fin 5000) (q : Fin 10) :
    k0_pay1 (F := Ideal) x cs w (ix2 p q) = Spec.proj x cs w p q := by
  unfold k0_pay1 Spec.proj
  refine (Ideal.matmul_constant_zero_apply dot_S5000x256_S256x10_S5000x10_1_0_0_1_n_n none _ _ (ix2 p q)).trans ?_
  rw [← Equiv.sum_comp (contrEquiv1 dot_S5000x256_S256x10_S5000x10_1_0_0_1_n_n 256 rfl rfl).symm]
  refine Finset.sum_congr rfl fun k _ => ?_
  have hk := contrEquiv1_symm_val dot_S5000x256_S256x10_S5000x10_1_0_0_1_n_n 256 rfl rfl k
  have el : dot_S5000x256_S256x10_S5000x10_1_0_0_1_n_n.lhsIdx (ix2 p q) ((contrEquiv1 dot_S5000x256_S256x10_S5000x10_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x10_S5000x10_1_0_0_1_n_n.rhsIdx (ix2 p q) ((contrEquiv1 dot_S5000x256_S256x10_S5000x10_1_0_0_1_n_n 256 rfl rfl).symm k) = ix2 k q := funext fun a => Fin.ext (by
    match a with
    | ⟨0, _⟩ => exact (rhs_row _ _).trans hk
    | ⟨1, _⟩ => exact rhs_col _ _)
  rw [el, er, truncf_apply, truncf_apply, addf_apply, shapeCast_self, broadcastTo_1b_ab_apply]

end Cert.KernelIdeal.LinearPay

end
-- ==== Proof.LinearValue.lean ====
/-
  The first stage's output array after all twenty grid points: the projected features of every node.

  Grid point `t` reads rows `5000·t … 5000·t + 4999` of the node features (and the whole row of column sums and
  the whole weight), and writes back rows `5000·t …` of the 100000 × 10 result. Its block is `Spec.proj` of the
  loaded blocks; a block's entry `(p, k)` is the array's entry `(5000·t + p, k)`, so the block written back is the
  restriction of the one whole-array function `projected` to those rows. The twenty blocks tile the rows, hence the
  array ends at `projected` everywhere.
-/
import proofs.«176740_j74852690035344_1_alg».proof.Proof.Gen.KernelIdeal.Frame
import proofs.«176740_j74852690035344_1_alg».proof.Proof.LinearPay

set_option maxRecDepth 16384

noncomputable section

namespace Cert.KernelIdeal.LinearValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The node features, the row of column sums and the weight as the region finds them. -/
abbrev xarr (c : Dev nD) : Vec Ideal S100000x256 .f32 := V c main_arg0
abbrev csarr (c : Dev nD) : Vec Ideal S1x256 .f32 := V c main_v1
abbrev warr (c : Dev nD) : Vec Ideal S256x10 .f32 := V c main_arg3
/-- The three blocks a grid point loads. -/
abbrev xblk (c : Dev nD) (t : Fin cfg0.N) : Vec Ideal S5000x256 .f32 := iblk0 V c 0 t
abbrev csblk (c : Dev nD) (t : Fin cfg0.N) : Vec Ideal S1x256 .f32 := iblk0 V c 1 t
abbrev wblk (c : Dev nD) (t : Fin cfg0.N) : Vec Ideal S256x10 .f32 := iblk0 V c 2 t

/-- The projected features of all nodes: entry `(r, q)` is `Σ_k (x[r,k] + cs[0,k]) · w[k,q]`. -/
def projected (c : Dev nD) : Vec Ideal S100000x10 .f32 := fun i =>
  Spec.proj (xarr V c) (csarr V c) (warr V c) ⟨(i 0).val, idx2_lt0 i⟩ ⟨(i 1).val, idx2_lt1 i⟩

theorem origin_zero : (![0, 0] : Fin 2 → Nat) = fun _ => 0 := funext fun a => by fin_cases a <;> rfl

/-- The index maps over the grid: the feature window and the output window move down the rows with the point, the
    other two stay put. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `projected`. -/
theorem flushed_eq (c : Dev nD) (t : Fin cfg0.N) :
    (dat0 V c).flushed 3 t = ((cfg0.win 3).blk t).view.read (Elt Ideal) (projected V c) := by
  show (cfg0.win 3).cut (grid0.coords t) ((dat0 V c).after 3 t) = _
  rw [after0_3]
  unfold out0_3
  rw [View.canon_unit_zero origin_zero]
  simp only [View.ld_unit_zero (S := S5000x256) origin_zero, View.ld_unit_zero (S := S1x256) origin_zero,
    View.ld_unit_zero (S := S256x10) origin_zero]
  obtain ⟨e00, e01, e10, e11, e20, e21, e30, e31⟩ := block_indices t
  funext j
  obtain ⟨p, q, rfl⟩ : ∃ (p : Fin 5000) (q : Fin 10), j = ix2 p q := ⟨j 0, j 1, eq_ix2 j⟩
  show k0_pay1 (F := Ideal) (xblk V c t) (csblk V c t) (wblk V c t) (ix2 p q)
    = projected V c (((cfg0.win 3).blk t).view.emb (ix2 p q))
  refine (LinearPay.payload_apply (xblk V c t) (csblk V c t) (wblk V c t) p q).trans ?_
  have hr : ((((cfg0.win 3).blk t).view.emb (ix2 p q)) 0).val = t.val * 5000 + p.val := by
    show win0_3.index t (0 : Fin 2) * 5000 + 1 * p.val = _; omega
  have hq : ((((cfg0.win 3).blk t).view.emb (ix2 p q)) 1).val = q.val := by
    show win0_3.index t (1 : Fin 2) * 10 + 1 * q.val = _; omega
  unfold projected Spec.proj
  refine Finset.sum_congr rfl fun k _ => ?_
  have hx : xblk V c t (ix2 p k) = xarr V c (ix2 ⟨_, idx2_lt0 (((cfg0.win 3).blk t).view.emb (ix2 p q))⟩ k) := by
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = _; rw [hr]; omega
    | ⟨1, _⟩ => show win0_0.index t (1 : Fin 2) * 256 + 1 * k.val = k.val; omega
  have hc : csblk V c t (ix2 (0 : Fin 1) k) = csarr V c (ix2 (0 : Fin 1) k) := by
    show V c main_v1 (((cfg0.win 1).blk t).view.emb (ix2 (0 : Fin 1) k)) = V c main_v1 _
    refine congrArg (V c main_v1) (funext fun a => Fin.ext ?_)
    match a with
    | ⟨0, _⟩ => show win0_1.index t (0 : Fin 2) * 1 + 1 * 0 = 0; omega
    | ⟨1, _⟩ => show win0_1.index t (1 : Fin 2) * 256 + 1 * k.val = k.val; omega
  have hw : wblk V c t (ix2 k q) = warr V c (ix2 k ⟨_, idx2_lt1 (((cfg0.win 3).blk t).view.emb (ix2 p q))⟩) := by
    show V c main_arg3 (((cfg0.win 2).blk t).view.emb (ix2 k q)) = V c main_arg3 _
    refine congrArg (V c main_arg3) (funext fun a => Fin.ext ?_)
    match a with
    | ⟨0, _⟩ => show win0_2.index t (0 : Fin 2) * 256 + 1 * k.val = k.val; omega
    | ⟨1, _⟩ => show win0_2.index t (1 : Fin 2) * 10 + 1 * q.val = _; rw [hq]; omega
  rw [hx, hc, hw]

/-- An index of the array is in point `t`'s block iff each coordinate is in the block's range on its axis. -/
theorem mem_blk (t : Fin cfg0.N) (i : S100000x10.Idx) :
    i ∈ ((cfg0.win 3).blk t).view.set ↔ ∀ a : Fin 2, win0_3.index t a * S5000x10.size a ≤ (i a).val ∧ (i a).val < win0_3.index t a * S5000x10.size a + S5000x10.size a := by
  show i ∈ ((View.whole main_v2).slice (win0_3.rect t)).set ↔ _
  rw [View.set_slice_whole, Rect.mem_set_unit]
  exact Iff.rfl

/-- Every row belongs to the point `row / 5000`. -/
theorem covered (i : S100000x10.Idx) :
    ∃ t : Fin cfg0.N, (cfg0.win 3).flush t = true ∧ i ∈ ((cfg0.win 3).blk t).view.set := by
  have hi0 : (i 0).val < 100000 := idx2_lt0 i
  have hi1 : (i 1).val < 10 := idx2_lt1 i
  let t : Fin cfg0.N := ⟨(i 0).val / 5000, by show (i 0).val / 5000 < 20; omega⟩
  obtain ⟨-, -, -, -, -, -, e30, e31⟩ := block_indices t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 10 ≤ (i 1).val ∧ (i 1).val < win0_3.index t (1 : Fin 2) * 10 + 10; omega

/-- The array after the region: the projected features of all nodes. -/
theorem final (c : Dev nD) : (dat0 V c).arrAt 3 cfg0.N = projected V c :=
  (dat0 V c).arrAt_eq_of_cover 3 (projected V c) (fun t _ => flushed_eq V c t) (covered)

end Cert.KernelIdeal.LinearValue

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.LibRowMax.lean ====
/-
  A row-wise maximum read as a fold over the row's entries, for a kernel's lane reduction and for the host's reduce.

  Both a `vector.multi_reduction <maximumf>` over axis 1 of an `[a, d]` block and a one-operand `stablehlo.reduce`
  with a maximum body over axis 1 of an `[a, d]` array are, on the extended reals, the fold of `max` from the initial
  value over the `d` entries of the row; `max` commutes and associates, so the order is immaterial. The lemmas state
  this at a row given by its coordinate, with the row's entries named `src (ix2 i k)`. Generic in the extents.
-/
import Idealize.ShloMosaic.Lib.ValueIdx
import Idealize.ShloMosaic.PureOps.Ideal.Laws

namespace Cert.Lib.RowMax

open Idealize.ShloMosaic Idealize.ShloMosaic.ValueIdx

/-- A kernel's maximum along the rows of an `[a, d]` block, at row `i`: the fold of `max` from the accumulator's
    value over the row's `d` entries. -/
theorem laneMax_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (Ideal.ofBits φ acc) (fun k => src (ix2 i k)) :=
  (Ideal.multiReduction_maximumf_single src acc h hφ hacc (ix1 i)).trans
    (congrArg (fun f : Fin d → EReal => (Finset.univ : Finset (Fin d)).fold max (Ideal.ofBits φ acc) f)
      (funext fun k => congrArg src (funext fun c => Fin.ext (by
        match c with
        | ⟨0, _⟩ => rfl
        | ⟨1, _⟩ => rfl))))

/-- The host's maximum along the rows of an `[a, d]` array, at row `i`: the fold of `max` from the initial value
    over the row's `d` entries. -/
theorem hostMax_apply {a d : ℕ} {u : Shape} (x : (⟨2, ![a, d]⟩ : Shape).Idx → EReal) (init : u.Idx → EReal)
    (h' : (⟨2, ![a, d]⟩ : Shape).ReducesTo [1] ⟨1, ![a]⟩) (h : (⟨2, ![a, d]⟩ : Shape).Reduces [1] ⟨1, ![a]⟩)
    (hu : 0 < u.numel) (i : Fin a) :
    Host.reduce (FloatOps.maximumf (F := Ideal) (φ := .f32)) x init h' hu (ix1 i)
      = (Finset.univ : Finset (Fin d)).fold max (init (Shape.Idx.first hu)) (fun k => x (ix2 i k)) :=
  (Host.reduce_eq_fold_single (FloatOps.maximumf (F := Ideal) (φ := .f32)) x init h' h hu (ix1 i)).trans
    (congrArg (fun f : Fin d → EReal => (Finset.univ : Finset (Fin d)).fold max (init (Shape.Idx.first hu)) f)
      (funext fun k => congrArg x (funext fun c => Fin.ext (by
        match c with
        | ⟨0, _⟩ => rfl
        | ⟨1, _⟩ => rfl))))

end Cert.Lib.RowMax
-- ==== Proof.PoolPay.lean ====
/-
  The second stage's block, read entry by entry on the extended reals.

  A grid point of the second kernel loads a 5000 × 10 block of logits, the 10 × 256 cluster embeddings and the
  5000 × 256 block of node features. Row by row it takes the maximum of the ten logits (from −∞, and once more
  against −∞), subtracts it, exponentiates, divides by the row's sum — the soft cluster weights — and multiplies the
  weights by the embeddings into a zero accumulator; the features are added. Narrowing to bf16 is the identity on
  extended reals, so entry `(p, d)` of what it stores is `x[p,d] + Σ_k soft(p,k) · ce[k,d]`: `Spec.pool` of the
  three loaded blocks at row `p`.
-/
import proofs.«176740_j74852690035344_1_alg».proof.Proof.Gen.KernelIdeal.Skeleton
import proofs.«176740_j74852690035344_1_alg».proof.Proof.Spec
import proofs.«176740_j74852690035344_1_alg».proof.Proof.LibColumn
import proofs.«176740_j74852690035344_1_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PoolPay

open Cert.KernelIdeal Cert.KernelIdeal.Gen Idealize.ShloMosaic Idealize.ShloMosaic.ValueIdx

/-! The operand indices of the block's matrix product at output index `i` and contraction index `q`: the left
    operand is read at (row of `i`, `q`), the right at (`q`, column of `i`). -/

theorem lhs_row (i : S5000x256.Idx) (q : dot_S5000x10_S10x256_S5000x256_1_0_0_1_n_n.contr.Idx) :
    (dot_S5000x10_S10x256_S5000x256_1_0_0_1_n_n.lhsIdx i q 0).val = (i 0).val := by
  unfold DotDims.lhsIdx
  rw [dif_neg (show ¬(0 : Fin S5000x10.rank) ∈ dot_S5000x10_S10x256_S5000x256_1_0_0_1_n_n.lhsBatch by decide), dif_pos (show (0 : Fin S5000x10.rank) ∈ dot_S5000x10_S10x256_S5000x256_1_0_0_1_n_n.lhsNonContracting by decide)]
  rfl
theorem lhs_col (i : S5000x256.Idx) (q : dot_S5000x10_S10x256_S5000x256_1_0_0_1_n_n.contr.Idx) :
    (dot_S5000x10_S10x256_S5000x256_1_0_0_1_n_n.lhsIdx i q 1).val = (q ⟨0, by decide⟩).val :=
  dot_S5000x10_S10x256_S5000x256_1_0_0_1_n_n.lhsIdx_val_of_single rfl i q
theorem rhs_row (i : S5000x256.Idx) (q : dot_S5000x10_S10x256_S5000x256_1_0_0_1_n_n.contr.Idx) :
    (dot_S5000x10_S10x256_S5000x256_1_0_0_1_n_n.rhsIdx i q 0).val = (q ⟨0, by decide⟩).val :=
  dot_S5000x10_S10x256_S5000x256_1_0_0_1_n_n.rhsIdx_val_of_single rfl i q
theorem rhs_col (i : S5000x256.Idx) (q : dot_S5000x10_S10x256_S5000x256_1_0_0_1_n_n.contr.Idx) :
    (dot_S5000x10_S10x256_S5000x256_1_0_0_1_n_n.rhsIdx i q 1).val = (i 1).val := by
  unfold DotDims.rhsIdx
  rw [dif_neg (show ¬(1 : Fin S10x256.rank) ∈ dot_S5000x10_S10x256_S5000x256_1_0_0_1_n_n.rhsBatch by decide), dif_pos (show (1 : Fin S10x256.rank) ∈ dot_S5000x10_S10x256_S5000x256_1_0_0_1_n_n.rhsNonContracting by decide)]
  rfl

section Row

variable (lg : FVec Ideal S5000x10 .f32)

/-- The row maximum as the kernel computes it, per row. -/
def rowMaxVec : FVec Ideal S5000 .f32 :=
  maximumf (broadcast S5000 (Scalar.ofBits (F := Ideal) .f32 0xFF800000#32))
    (multiReduction .maximumf [1] S5000 (shapeCast S5000x10 lg shapeCasts_S5000x10_S5000x10) 0xFF800000#32 reduces_S5000x10_S5000 (.inl rfl) rfl)

theorem rowMaxVec_apply (p : Fin 5000) : rowMaxVec lg (ix1 p) = Spec.rowMax lg p := by
  have hs : ∀ b : BitVec 32, Scalar.ofBits (F := Ideal) .f32 b = Ideal.ofBits .f32 b := fun _ => rfl
  have hself : shapeCast S5000x10 lg shapeCasts_S5000x10_S5000x10 = lg := shapeCast_self lg _
  have hm := Cert.Lib.RowMax.laneMax_apply lg 0xFF800000#32 reduces_S5000x10_S5000 (.inl rfl) rfl p
  unfold rowMaxVec Spec.rowMax
  rw [hself]
  refine (maximumf_apply _ _ (ix1 p)).trans ?_
  rw [broadcast_apply, hs]
  exact congrArg (max _) hm

/-- The shifted exponentials of the block. -/
def expVec : FVec Ideal S5000x10 .f32 :=
  exp (subf (shapeCast S5000x10 lg shapeCasts_S5000x10_S5000x10)
    (broadcastTo S5000x10 (shapeCast S5000x1 (rowMaxVec lg) shapeCasts_S5000_S5000x1) broadcasts_S5000x1_S5000x10))

theorem expVec_apply (p : Fin 5000) (k : Fin 10) : expVec lg (ix2 p k) = Spec.expShift lg p k := by
  have hself : shapeCast S5000x10 lg shapeCasts_S5000x10_S5000x10 = lg := shapeCast_self lg _
  have he : ∀ (v : FVec Ideal S5000x10 .f32) (i : S5000x10.Idx), exp v i = Ideal.exp (v i) := fun _ _ => rfl
  have hb : broadcastTo S5000x10 (shapeCast S5000x1 (rowMaxVec lg) shapeCasts_S5000_S5000x1) broadcasts_S5000x1_S5000x10 (ix2 p k)
      = Spec.rowMax lg p :=
    (Cert.Lib.Column.broadcastTo_a1_ab_apply _ broadcasts_S5000x1_S5000x10 p k).trans
      ((Cert.Lib.Column.shapeCast_a_a1_apply (rowMaxVec lg) shapeCasts_S5000_S5000x1 p 0).trans (rowMaxVec_apply lg p))
  unfold expVec Spec.expShift
  rw [hself, he]
  exact congrArg Ideal.exp ((subf_apply lg _ (ix2 p k)).trans (congrArg (lg (ix2 p k) - ·) hb))

/-- The soft weights of the block. -/
def softVec : FVec Ideal S5000x10 .f32 :=
  divf (expVec lg)
    (broadcastTo S5000x10 (shapeCast S5000x1
      (multiReduction .add [1] S5000 (expVec lg) 0x00000000#32 reduces_S5000x10_S5000 (.inl rfl) rfl)
      shapeCasts_S5000_S5000x1) broadcasts_S5000x1_S5000x10)

theorem softVec_apply (p : Fin 5000) (k : Fin 10) : softVec lg (ix2 p k) = Spec.soft lg p k := by
  have hsum := (Cert.Lib.Column.rowSum_apply (expVec lg) 0x00000000#32 reduces_S5000x10_S5000 (.inl rfl) rfl p).trans
    (Finset.sum_congr rfl fun k' _ => expVec_apply lg p k')
  unfold softVec Spec.soft
  refine (divf_apply _ _ (ix2 p k)).trans ?_
  exact congrArg₂ Ideal.div (expVec_apply lg p k)
    ((Cert.Lib.Column.broadcastTo_a1_ab_apply _ broadcasts_S5000x1_S5000x10 p k).trans
      ((Cert.Lib.Column.shapeCast_a_a1_apply _ shapeCasts_S5000_S5000x1 p 0).trans hsum))

end Row

/-- The stored block is the features plus the soft weights times the embeddings, as one term over the named pieces. -/
theorem payload_eq (lg : FVec Ideal S5000x10 .f32) (ce : FVec Ideal S10x256 .f32) (x : FVec Ideal S5000x256 .f32) :
    k1_pay1 (F := Ideal) lg ce x
      = addf x (matmul dot_S5000x10_S10x256_S5000x256_1_0_0_1_n_n none (truncf .bf16 (softVec lg) bitsLt_bf16_f32) (truncf .bf16 ce bitsLt_bf16_f32)
          (constant S5000x256 .f32 0x00000000#32)) := rfl

/-- Entry `(p, d)` of the stored block is `x[p,d] + Σ_k soft(p,k) · ce[k,d]`. -/
theorem payload_apply (lg : FVec Ideal S5000x10 .f32) (ce : FVec Ideal S10x256 .f32) (x : FVec Ideal S5000x256 .f32)
    (p : Fin 5000) (d : Fin 256) :
    k1_pay1 (F := Ideal) lg ce x (ix2 p d) = Spec.pool lg ce x p p d := by
  rw [payload_eq, addf_apply]
  unfold Spec.pool
  refine congrArg (x (ix2 p d) + ·) ?_
  refine (Ideal.matmul_constant_zero_apply dot_S5000x10_S10x256_S5000x256_1_0_0_1_n_n none _ _ (ix2 p d)).trans ?_
  rw [← Equiv.sum_comp (contrEquiv1 dot_S5000x10_S10x256_S5000x256_1_0_0_1_n_n 10 rfl rfl).symm]
  refine Finset.sum_congr rfl fun k _ => ?_
  have hk := contrEquiv1_symm_val dot_S5000x10_S10x256_S5000x256_1_0_0_1_n_n 10 rfl rfl k
  have el : dot_S5000x10_S10x256_S5000x256_1_0_0_1_n_n.lhsIdx (ix2 p d) ((contrEquiv1 dot_S5000x10_S10x256_S5000x256_1_0_0_1_n_n 10 rfl rfl).symm k) = ix2 p k := funext fun a => Fin.ext (by
    match a with
    | ⟨0, _⟩ => exact lhs_row _ _
    | ⟨1, _⟩ => exact (lhs_col _ _).trans hk)
  have er : dot_S5000x10_S10x256_S5000x256_1_0_0_1_n_n.rhsIdx (ix2 p d) ((contrEquiv1 dot_S5000x10_S10x256_S5000x256_1_0_0_1_n_n 10 rfl rfl).symm k) = ix2 k d := funext fun a => Fin.ext (by
    match a with
    | ⟨0, _⟩ => exact (rhs_row _ _).trans hk
    | ⟨1, _⟩ => exact rhs_col _ _)
  rw [el, er, truncf_apply, truncf_apply, softVec_apply]

end Cert.KernelIdeal.PoolPay

end
-- ==== Proof.PoolValue.lean ====
/-
  The second stage's output array after all twenty grid points: every node's features plus its soft-weighted
  combination of cluster embeddings.

  Grid point `t` reads rows `5000·t … 5000·t + 4999` of the logits and of the node features (and the whole table of
  cluster embeddings), and writes back the same rows of the 100000 × 256 result. Its block is `Spec.pool` of the loaded
  blocks; a block's row `p` is the array's row `5000·t + p`, and a row's soft weights depend only on that row's ten
  logits, so the block written back is the restriction of the one whole-array function `pooled` to those rows. The
  twenty blocks tile the rows, hence the array ends at `pooled` everywhere.
-/
import proofs.«176740_j74852690035344_1_alg».proof.Proof.Gen.KernelIdeal.Frame
import proofs.«176740_j74852690035344_1_alg».proof.Proof.PoolPay

set_option maxRecDepth 16384

noncomputable section

namespace Cert.KernelIdeal.PoolValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The logits, the cluster embeddings and the node features as the region finds them. -/
abbrev lgarr (c : Dev nD) : Vec Ideal S100000x10 .f32 := V c main_v48
abbrev cearr (c : Dev nD) : Vec Ideal S10x256 .f32 := V c main_arg5
abbrev xarr (c : Dev nD) : Vec Ideal S100000x256 .f32 := V c main_arg0
/-- The three blocks a grid point loads. -/
abbrev lgblk (c : Dev nD) (t : Fin cfg1.N) : Vec Ideal S5000x10 .f32 := iblk1 V c 0 t
abbrev ceblk (c : Dev nD) (t : Fin cfg1.N) : Vec Ideal S10x256 .f32 := iblk1 V c 1 t
abbrev xblk (c : Dev nD) (t : Fin cfg1.N) : Vec Ideal S5000x256 .f32 := iblk1 V c 2 t

/-- The pooled output of all nodes: entry `(r, d)` is `x[r,d] + Σ_k soft(r,k) · ce[k,d]`. -/
def pooled (c : Dev nD) : Vec Ideal S100000x256 .f32 := fun i =>
  Spec.pool (lgarr V c) (cearr V c) (xarr V c) ⟨(i 0).val, idx2_lt0 i⟩ ⟨(i 0).val, idx2_lt0 i⟩ ⟨(i 1).val, idx2_lt1 i⟩

theorem origin_zero : (![0, 0] : Fin 2 → Nat) = fun _ => 0 := funext fun a => by fin_cases a <;> rfl

/-- The index maps over the grid: the logits, the features and the output move down the rows with the point, the
    cluster embeddings stay put. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `pooled`. -/
theorem flushed_eq (c : Dev nD) (t : Fin cfg1.N) :
    (dat1 V c).flushed 3 t = ((cfg1.win 3).blk t).view.read (Elt Ideal) (pooled V c) := by
  show (cfg1.win 3).cut (grid1.coords t) ((dat1 V c).after 3 t) = _
  rw [after1_3]
  unfold out1_3
  rw [View.canon_unit_zero origin_zero]
  simp only [View.ld_unit_zero (S := S5000x10) origin_zero, View.ld_unit_zero (S := S10x256) origin_zero,
    View.ld_unit_zero (S := S5000x256) origin_zero]
  obtain ⟨e00, e01, e10, e11, e20, e21, e30, e31⟩ := block_indices t
  funext j
  obtain ⟨p, d, rfl⟩ : ∃ (p : Fin 5000) (d : Fin 256), j = ix2 p d := ⟨j 0, j 1, eq_ix2 j⟩
  show k1_pay1 (F := Ideal) (lgblk V c t) (ceblk V c t) (xblk V c t) (ix2 p d)
    = pooled V c (((cfg1.win 3).blk t).view.emb (ix2 p d))
  refine (PoolPay.payload_apply (lgblk V c t) (ceblk V c t) (xblk V c t) p d).trans ?_
  have hr : ((((cfg1.win 3).blk t).view.emb (ix2 p d)) 0).val = t.val * 5000 + p.val := by
    show win1_3.index t (0 : Fin 2) * 5000 + 1 * p.val = _; omega
  have hd : ((((cfg1.win 3).blk t).view.emb (ix2 p d)) 1).val = d.val := by
    show win1_3.index t (1 : Fin 2) * 256 + 1 * d.val = _; omega
  unfold pooled Spec.pool
  have hx : xblk V c t (ix2 p d) = xarr V c (ix2 ⟨_, idx2_lt0 (((cfg1.win 3).blk t).view.emb (ix2 p d))⟩
      ⟨_, idx2_lt1 (((cfg1.win 3).blk t).view.emb (ix2 p d))⟩) := by
    show V c main_arg0 (((cfg1.win 2).blk t).view.emb (ix2 p d)) = V c main_arg0 _
    refine congrArg (V c main_arg0) (funext fun a => Fin.ext ?_)
    match a with
    | ⟨0, _⟩ => show win1_2.index t (0 : Fin 2) * 5000 + 1 * p.val = _; rw [hr]; omega
    | ⟨1, _⟩ => show win1_2.index t (1 : Fin 2) * 256 + 1 * d.val = _; rw [hd]; omega
  have hl : ∀ k : Fin 10, lgblk V c t (ix2 p k)
      = lgarr V c (ix2 ⟨_, idx2_lt0 (((cfg1.win 3).blk t).view.emb (ix2 p d))⟩ k) := fun k => by
    show V c main_v48 (((cfg1.win 0).blk t).view.emb (ix2 p k)) = V c main_v48 _
    refine congrArg (V c main_v48) (funext fun a => Fin.ext ?_)
    match a with
    | ⟨0, _⟩ => show win1_0.index t (0 : Fin 2) * 5000 + 1 * p.val = _; rw [hr]; omega
    | ⟨1, _⟩ => show win1_0.index t (1 : Fin 2) * 10 + 1 * k.val = k.val; omega
  have hc : ∀ k : Fin 10, ceblk V c t (ix2 k d)
      = cearr V c (ix2 k ⟨_, idx2_lt1 (((cfg1.win 3).blk t).view.emb (ix2 p d))⟩) := fun k => by
    show V c main_arg5 (((cfg1.win 1).blk t).view.emb (ix2 k d)) = V c main_arg5 _
    refine congrArg (V c main_arg5) (funext fun a => Fin.ext ?_)
    match a with
    | ⟨0, _⟩ => show win1_1.index t (0 : Fin 2) * 10 + 1 * k.val = k.val; omega
    | ⟨1, _⟩ => show win1_1.index t (1 : Fin 2) * 256 + 1 * d.val = _; rw [hd]; omega
  rw [hx]
  refine congrArg (_ + ·) (Finset.sum_congr rfl fun k _ => ?_)
  rw [hc k, Spec.soft_congr (lgblk V c t) (lgarr V c) p _ hl k]

/-- An index of the array is in point `t`'s block iff each coordinate is in the block's range on its axis. -/
theorem mem_blk (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v49).slice (win1_3.rect t)).set ↔ _
  rw [View.set_slice_whole, Rect.mem_set_unit]
  exact Iff.rfl

/-- Every row belongs to the point `row / 5000`. -/
theorem covered (i : S100000x256.Idx) :
    ∃ t : Fin cfg1.N, (cfg1.win 3).flush t = true ∧ i ∈ ((cfg1.win 3).blk t).view.set := by
  have hi0 : (i 0).val < 100000 := idx2_lt0 i
  have hi1 : (i 1).val < 256 := idx2_lt1 i
  let t : Fin cfg1.N := ⟨(i 0).val / 5000, by show (i 0).val / 5000 < 20; omega⟩
  obtain ⟨-, -, -, -, -, -, e30, e31⟩ := block_indices t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The array after the region: the pooled output of all nodes. -/
theorem final (c : Dev nD) : (dat1 V c).arrAt 3 cfg1.N = pooled V c :=
  (dat1 V c).arrAt_eq_of_cover 3 (pooled V c) (fun t _ => flushed_eq V c t) (covered)

end Cert.KernelIdeal.PoolValue

end
-- ==== Proof.RefMessages.lean ====
/-
  The reference's message passing, named as one function.

  Between its two dense stages the reference gathers the projected features along the edge list (with self-loops
  appended), scales each message by the symmetric degree normalisation, scatter-adds the messages into the
  destination nodes and adds the bias. All of this is ONE function, `messages`, of the projected features, the edge list
  and the bias. The kernel's program applies the same operations between its two regions, so the certificate only needs
  the function's name, never what it computes.
-/
import proofs.«176740_j74852690035344_1_alg».proof.Proof.RefRead

noncomputable section

namespace Cert.ReferenceIdeal.RefValue

open Cert.ReferenceIdeal Cert.ReferenceIdeal.Gen Cert.ReferenceIdeal.ReadP Idealize.ShloMosaic

/-! ## The message passing as one function of the projected features -/

section Messages
variable {F : FTy → Type} [FloatOps F]

/-- Normalised gather / scatter-add message passing plus the bias, as a function of the projected features `hw`, the
    edge list and the bias: the reference's host operations from the gather of the features to the logits. -/
def messages (hw : (⟨S100000x10, .f32⟩ : BufTy).Contents (Elt F)) (x1 : (⟨S2x3200000, .i32⟩ : BufTy).Contents (Elt F))
    (x4 : (⟨S10, .f32⟩ : BufTy).Contents (Elt F)) : (⟨S100000x10, .f32⟩ : BufTy).Contents (Elt F) :=
  addf (Host.scatterAdd scatter_S100000x10_S3300000x1_S3300000x10_1_0_0_1 (val_main_v45 (F := F)) (val_main_v46 (F := F) x1)
      (mulf (Host.gather gather_S100000x10_S3300000x1_S3300000x10_1_0_n_n_0_1_110 hw (val_main_v40 (F := F) x1)) (val_main_v43 (F := F) x1)))
    (val_main_v49 (F := F) x4)

/-- The reference's logits are the message passing of its projected features. -/
theorem logits_eq (x0 : (⟨S100000x256, .f32⟩ : BufTy).Contents (Elt F)) (x1 : (⟨S2x3200000, .i32⟩ : BufTy).Contents (Elt F))
    (x3 : (⟨S256x10, .f32⟩ : BufTy).Contents (Elt F)) (x4 : (⟨S10, .f32⟩ : BufTy).Contents (Elt F)) (x5 : (⟨S10x256, .f32⟩ : BufTy).Contents (Elt F)) :
    val_main_v50 (F := F) x0 x1 x3 x4 x5 = messages (val_main_v4 (F := F) x0 x3 x5) x1 x4 := by
  unfold val_main_v50 val_main_v47 val_main_v44 val_main_v41 messages
  rfl

end Messages

end Cert.ReferenceIdeal.RefValue

end
-- ==== Proof.HostChain.lean ====
/-
  The host operations of the kernel's program between its launch, its two regions and its return, read as values.

  Before the first region the host sums the cluster embeddings over the ten clusters and lays the 256 sums out as a
  1 × 256 row: the same two operations the reference starts with. Between the regions it runs the gather /
  scatter-add message passing on the first region's output and adds the bias: operation for operation the
  reference's own chain, so the logits the second region is entered with are the reference's function `messages`
  of the first region's output, the edge list and the bias. No operation writes an argument array, so the regions find
  the arguments as launched.
-/
import proofs.«176740_j74852690035344_1_alg».proof.Proof.Gen.KernelIdeal.Frame
import proofs.«176740_j74852690035344_1_alg».proof.Proof.RefMessages

set_option maxRecDepth 16384

noncomputable section

namespace Cert.KernelIdeal.HostChain

open Cert.KernelIdeal Cert.KernelIdeal.Gen Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-! ## Before the first region -/

/-- The first region finds the row of column sums the reference computes. -/
theorem entry0_colsum (c : Dev nD) :
    W1 m ρ c (Proc.devRef .tc main_v1) = Cert.ReferenceIdeal.ReadP.val_main_v1 (F := F) (m ((c : Thread nD τ).loc main_arg5)) := by
  show StableHlo.after hostOps0 (W0 m ρ c) (Proc.devRef .tc main_v1) = _
  dsimp only [hostOps0]
  after_results
  rfl

/-- The first region finds the node features as launched. -/
theorem entry0_x (c : Dev nD) : W1 m ρ c (Proc.devRef .tc main_arg0) = m ((c : Thread nD τ).loc main_arg0) := by
  show StableHlo.after hostOps0 (W0 m ρ c) (Proc.devRef .tc main_arg0) = _
  dsimp only [hostOps0]
  after_results

/-- The first region finds the weight as launched. -/
theorem entry0_w (c : Dev nD) : W1 m ρ c (Proc.devRef .tc main_arg3) = m ((c : Thread nD τ).loc main_arg3) := by
  show StableHlo.after hostOps0 (W0 m ρ c) (Proc.devRef .tc main_arg3) = _
  dsimp only [hostOps0]
  after_results

/-! ## Between the regions -/

/-- After the first region the edge list is as launched. -/
theorem exit0_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]
  after_results

/-- After the first region the bias is as launched. -/
theorem exit0_bias (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  dsimp only [hostOps0]
  after_results

/-- The logits the second region is entered with: the reference's message passing of the first region's output. -/
theorem entry1_logits (c : Dev nD) :
    W5 m ρ c (Proc.devRef .tc main_v48)
      = Cert.ReferenceIdeal.RefValue.messages (F := F) (W2 m ρ c (Proc.devRef .tc main_v2))
          (W2 m ρ c (Proc.devRef .tc main_arg1)) (W2 m ρ c (Proc.devRef .tc main_arg4)) := by
  show StableHlo.after hostOps1_2 (StableHlo.after hostOps1_1 (StableHlo.after hostOps1 (W2 m ρ c))) (Proc.devRef .tc main_v48) = _
  generalize W2 m ρ c = Wc
  dsimp only [hostOps1, hostOps1_1, hostOps1_2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  unfold Cert.ReferenceIdeal.RefValue.messages
  rfl

end Cert.KernelIdeal.HostChain

end
-- ==== Proof.RefValue.lean ====
/-
  The reference's stages, read against the specification.

  The reference computes the projected features with one whole-array matrix product of `x + (column sums)` with the
  weight, passes them through the gather / scatter-add message passing, and then applies the row softmax, multiplies by
  the cluster embeddings and adds the features, all on whole arrays. Read at an index on the extended reals:
  its projected features are `Spec.proj` and its pooled output is `Spec.pool` of its logits (which are the function
  `messages` of the projected features, never opened here).
-/
import proofs.«176740_j74852690035344_1_alg».proof.Proof.RefRead
import proofs.«176740_j74852690035344_1_alg».proof.Proof.RefMessages
import proofs.«176740_j74852690035344_1_alg».proof.Proof.Spec
import proofs.«176740_j74852690035344_1_alg».proof.Proof.LibRowMax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## The two dense stages at an index -/

section Stages
variable (x0 : (⟨S100000x256, .f32⟩ : BufTy).Contents (Elt Ideal)) (x1 : (⟨S2x3200000, .i32⟩ : BufTy).Contents (Elt Ideal))
  (x3 : (⟨S256x10, .f32⟩ : BufTy).Contents (Elt Ideal)) (x4 : (⟨S10, .f32⟩ : BufTy).Contents (Elt Ideal)) (x5 : (⟨S10x256, .f32⟩ : BufTy).Contents (Elt Ideal))

/-- The reference's projected features, entry `(r, q)`. -/
theorem proj_eq (r : Fin 100000) (q : Fin 10) :
    val_main_v4 (F := Ideal) x0 x3 x5 (ix2 r q) = Spec.proj x0 (val_main_v1 (F := Ideal) x5) x3 r q := by
  rw [val_main_v4_apply]
  unfold Spec.proj
  refine Finset.sum_congr rfl fun k _ => ?_
  have hl : lidx_main_v4 (ix2 r q) k = ix2 r k := funext fun a => Fin.ext (by match a with | ⟨0, _⟩ => rfl | ⟨1, _⟩ => rfl)
  have hr : ridx_main_v4 (ix2 r q) k = ix2 k q := funext fun a => Fin.ext (by match a with | ⟨0, _⟩ => rfl | ⟨1, _⟩ => rfl)
  have h2 : idx_main_v2 (ix2 r k) = ix2 (0 : Fin 1) k := funext fun a => Fin.ext (by match a with | ⟨0, _⟩ => rfl | ⟨1, _⟩ => rfl)
  rw [hl, hr, val_main_v3_apply, val_main_v2_apply, h2]
  rfl

/-- The reference's row maximum, over its logits. -/
theorem rowMax_eq (r : Fin 100000) :
    val_main_v53 (F := Ideal) x0 x1 x3 x4 x5 (ix1 r) = Spec.rowMax (val_main_v50 (F := Ideal) x0 x1 x3 x4 x5) r := by
  rw [val_main_v53_apply, val_main_v52_apply, val_main_cst_11_apply]
  unfold val_main_v51 Spec.rowMax
  refine congrArg (max _) ?_
  exact Cert.Lib.RowMax.hostMax_apply (val_main_v50 (F := Ideal) x0 x1 x3 x4 x5) (val_main_cst_10 (F := Ideal))
    reducesTo_S100000x10_S100000_d1 (by decide) h_S_ r

/-- The reference's shifted exponentials. -/
theorem exp_eq (r : Fin 100000) (k : Fin 10) :
    val_main_v57 (F := Ideal) x0 x1 x3 x4 x5 (ix2 r k) = Spec.expShift (val_main_v50 (F := Ideal) x0 x1 x3 x4 x5) r k := by
  have hi : idx_main_v54 (idx_main_v55 (ix2 r k)) = ix1 r := funext fun a => Fin.ext (by match a with | ⟨0, _⟩ => rfl)
  rw [val_main_v57_apply, val_main_v56_apply, val_main_v55_apply, val_main_v54_apply, hi, rowMax_eq]
  generalize val_main_v50 (F := Ideal) x0 x1 x3 x4 x5 = y
  rfl

/-- The reference's row sums of the shifted exponentials. -/
theorem sum_eq (r : Fin 100000) :
    val_main_v58 (F := Ideal) x0 x1 x3 x4 x5 (ix1 r) = ∑ k' : Fin 10, Spec.expShift (val_main_v50 (F := Ideal) x0 x1 x3 x4 x5) r k' := by
  rw [val_main_v58_apply, val_main_cst_12_apply]
  show Ideal.ofBits .f32 0x00000000#32 + _ = _
  rw [Ideal.ofBits_zero_f32, zero_add]
  refine Finset.sum_congr rfl fun k' _ => ?_
  have hk : idx_main_v58 (ix1 r) k' = ix2 r k' := funext fun a => Fin.ext (by match a with | ⟨0, _⟩ => rfl | ⟨1, _⟩ => rfl)
  rw [hk, exp_eq]

/-- The reference's soft weights. -/
theorem soft_eq (r : Fin 100000) (k : Fin 10) :
    val_main_v61 (F := Ideal) x0 x1 x3 x4 x5 (ix2 r k) = Spec.soft (val_main_v50 (F := Ideal) x0 x1 x3 x4 x5) r k := by
  have hi : idx_main_v59 (idx_main_v60 (ix2 r k)) = ix1 r := funext fun a => Fin.ext (by match a with | ⟨0, _⟩ => rfl)
  rw [val_main_v61_apply, val_main_v60_apply, val_main_v59_apply, hi, sum_eq, exp_eq]
  generalize val_main_v50 (F := Ideal) x0 x1 x3 x4 x5 = y
  rfl

/-- The reference's result, entry `(r, d)`. -/
theorem pool_eq (r : Fin 100000) (d : Fin 256) :
    val_main_v63 (F := Ideal) x0 x1 x3 x4 x5 (ix2 r d) = Spec.pool (val_main_v50 (F := Ideal) x0 x1 x3 x4 x5) x5 x0 r r d := by
  rw [val_main_v63_apply, val_main_v62_apply]
  unfold Spec.pool
  refine congrArg (x0 (ix2 r d) + ·) (Finset.sum_congr rfl fun k _ => ?_)
  have hl : lidx_main_v62 (ix2 r d) k = ix2 r k := funext fun a => Fin.ext (by match a with | ⟨0, _⟩ => rfl | ⟨1, _⟩ => rfl)
  have hr : ridx_main_v62 (ix2 r d) k = ix2 k d := funext fun a => Fin.ext (by match a with | ⟨0, _⟩ => rfl | ⟨1, _⟩ => rfl)
  rw [hl, hr, soft_eq]

end Stages

end Cert.ReferenceIdeal.RefValue

end
-- ==== Proof.KernelValue.lean ====
/-
  The kernel's program, stage by stage, against the reference's stages.

  Over the launch memory `m`: the first region leaves the reference's projected features in its output array (both are
  `Spec.proj` of the features, the row of column sums and the weight); the host operations between the regions turn
  them into the reference's logits (the shared function `messages`); and the second region leaves the reference's
  result in the program's result array (both are `Spec.pool` of the logits, the cluster embeddings and the features).
-/
import proofs.«176740_j74852690035344_1_alg».proof.Proof.LinearValue
import proofs.«176740_j74852690035344_1_alg».proof.Proof.PoolValue
import proofs.«176740_j74852690035344_1_alg».proof.Proof.HostChain
import proofs.«176740_j74852690035344_1_alg».proof.Proof.RefValue

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- After the first region its output array holds the reference's projected features of the launch memory. -/
theorem projected_eq (c : Dev nD) :
    W2 m ρ c (Proc.devRef .tc main_v2) = Cert.ReferenceIdeal.ReadP.val_main_v4 (F := Ideal) (m ((c : Thread nD τ).loc main_arg0)) (m ((c : Thread nD τ).loc main_arg3)) (m ((c : Thread nD τ).loc main_arg5)) := by
  refine (W2_arr m ρ c 3).trans ?_
  rw [LinearValue.final (V1 m ρ) c]
  funext i
  obtain ⟨r, q, rfl⟩ : ∃ (r : Fin 100000) (q : Fin 10), i = ix2 r q := ⟨i 0, i 1, eq_ix2 i⟩
  rw [Cert.ReferenceIdeal.RefValue.proj_eq]
  unfold LinearValue.projected
  have e0 : LinearValue.xarr (V1 m ρ) c = (m ((c : Thread nD τ).loc main_arg0)) := HostChain.entry0_x m ρ c
  have e1 : LinearValue.csarr (V1 m ρ) c = Cert.ReferenceIdeal.ReadP.val_main_v1 (F := Ideal) (m ((c : Thread nD τ).loc main_arg5)) := HostChain.entry0_colsum m ρ c
  have e3 : LinearValue.warr (V1 m ρ) c = (m ((c : Thread nD τ).loc main_arg3)) := HostChain.entry0_w m ρ c
  rw [e0, e1, e3]

/-- The second region is entered with the reference's logits of the launch memory. -/
theorem logits_eq (c : Dev nD) :
    W5 m ρ c (Proc.devRef .tc main_v48) = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (HostChain.entry1_logits m ρ c).trans ?_
  rw [projected_eq m ρ c, HostChain.exit0_edges m ρ c, HostChain.exit0_bias m ρ c]
  exact (Cert.ReferenceIdeal.RefValue.logits_eq _ _ _ _ _).symm

/-- The second region finds the cluster embeddings as launched. -/
theorem entry1_ce (c : Dev nD) : W5 m ρ c (Proc.devRef .tc main_arg5) = (m ((c : Thread nD τ).loc main_arg5)) :=
  ((W6_arr m ρ c 1).trans (((dat1 (V5 m ρ) c).arrAt_in 1 rfl _).trans (A_eq1 (V5 m ρ) c 1))).symm.trans (W6_main_arg5 m ρ c)

/-- The second region finds the node features as launched. -/
theorem entry1_x (c : Dev nD) : W5 m ρ c (Proc.devRef .tc main_arg0) = (m ((c : Thread nD τ).loc main_arg0)) :=
  ((W6_arr m ρ c 2).trans (((dat1 (V5 m ρ) c).arrAt_in 2 rfl _).trans (A_eq1 (V5 m ρ) c 2))).symm.trans (W6_main_arg0 m ρ c)

/-- After the second region the result array holds the reference's result of the launch memory. -/
theorem result_eq (c : Dev nD) :
    W6 m ρ c (Proc.devRef .tc main_v49) = Cert.ReferenceIdeal.ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ?_
  rw [PoolValue.final (V5 m ρ) c]
  funext i
  obtain ⟨r, d, rfl⟩ : ∃ (r : Fin 100000) (d : Fin 256), i = ix2 r d := ⟨i 0, i 1, eq_ix2 i⟩
  rw [Cert.ReferenceIdeal.RefValue.pool_eq]
  unfold PoolValue.pooled
  have e48 : PoolValue.lgarr (V5 m ρ) c = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := logits_eq m ρ c
  have e5 : PoolValue.cearr (V5 m ρ) c = (m ((c : Thread nD τ).loc main_arg5)) := entry1_ce m ρ c
  have e0 : PoolValue.xarr (V5 m ρ) c = (m ((c : Thread nD τ).loc main_arg0)) := entry1_x m ρ c
  rw [e48, e5, e0]

end Cert.KernelIdeal.KernelValue

end
-- ==== Proof.lean ====
/-
  A two-stage graph pooling kernel against its jnp reference, over the extended reals.

  Both programs compute, for 100000 nodes with 256 features, 10 clusters and an edge list:
    1. the projected features `(x + Σ_clusters cluster_emb) · W`                       (100000 × 10),
    2. the normalised gather / scatter-add message passing of them along the edges, plus the bias   (the logits),
    3. `x + softmax(logits) · cluster_emb`                                               (100000 × 256).
  The kernel's program does 1 and 3 in two tiled regions of twenty row blocks each, with the sum over clusters and
  step 2 as host operations around them; the reference does everything on whole arrays. On the extended reals a change
  of float format is the identity and a tiled matrix product into a zero accumulator is the plain sum, so each region's
  output array is, row by row, the reference's stage (`Spec.proj`, `Spec.pool`); step 2 is operation for operation the
  same function in both programs and is carried unopened. No law beyond the re-indexing of finite sums is used, so the
  precondition (finite inputs) is never opened.

  The three frames: the two kernel programs' are the generated ones; the reference's is its run with the result dropped.
  `preserves` has no conjunct (the idealization rewrote nothing).
-/
import proofs.«176740_j74852690035344_1_alg».proof.Defs
import proofs.«176740_j74852690035344_1_alg».proof.Proof.Gen.Kernel
import proofs.«176740_j74852690035344_1_alg».proof.Proof.Gen.Kernel.Skeleton
import proofs.«176740_j74852690035344_1_alg».proof.Proof.Gen.Kernel.Launch
import proofs.«176740_j74852690035344_1_alg».proof.Proof.Gen.Kernel.Points
import proofs.«176740_j74852690035344_1_alg».proof.Proof.Gen.Kernel.Frame
import proofs.«176740_j74852690035344_1_alg».proof.Proof.Gen.KernelIdeal
import proofs.«176740_j74852690035344_1_alg».proof.Proof.Gen.KernelIdeal.Skeleton
import proofs.«176740_j74852690035344_1_alg».proof.Proof.Gen.KernelIdeal.Launch
import proofs.«176740_j74852690035344_1_alg».proof.Proof.Gen.KernelIdeal.Points
import proofs.«176740_j74852690035344_1_alg».proof.Proof.Gen.KernelIdeal.Frame
import proofs.«176740_j74852690035344_1_alg».proof.Proof.Gen.ReferenceIdeal
import proofs.«176740_j74852690035344_1_alg».proof.Proof.RefRun
import proofs.«176740_j74852690035344_1_alg».proof.Proof.RefRead
import proofs.«176740_j74852690035344_1_alg».proof.Proof.Gen.Pre_finite_inputs
import proofs.«176740_j74852690035344_1_alg».proof.Proof.KernelRun
import proofs.«176740_j74852690035344_1_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunP.run (F := Ideal) m ρ),
  trivial,
  fun m ρ m' ρ' _ hagree =>
    ⟨fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     (θ_run Cert.KernelIdeal.defs _ _).mono
       (fun _ h c => ⟨(h c).1.trans (Cert.KernelIdeal.KernelValue.result_eq m ρ c), (h c).2⟩)
       (Cert.KernelIdeal.Gen.run_result (F := Ideal) m ρ),
     (θ_run Cert.ReferenceIdeal.defs _ _).mono
       (fun _ h c => ⟨by
          rw [(h c).1, Cert.ReferenceIdeal.ReadP.val_main_v63_eq, (hagree c).1, (hagree c).2.1, (hagree c).2.2.2.1,
            (hagree c).2.2.2.2.1, (hagree c).2.2.2.2.2], (h c).2⟩)
       (Cert.ReferenceIdeal.RunP.run (F := Ideal) m' ρ')⟩⟩

end Cert.Proof

end
